-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S4096x1 : S4096.ShapeCasts S4096x1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.SumBlocks.lean ====
/-
  A sum over the 4096 consecutive naturals below 4096, in any commutative monoid, is the sum over its four
  consecutive blocks of 1024: the contraction axis of length 4096 cut into the four blocks of 1024 that are
  accumulated one after the other. Only commutativity and associativity of the addition are used, so the
  statement holds on the extended reals with no finiteness assumption.
-/
import Mathlib.Algebra.BigOperators.Fin
import Mathlib.Algebra.BigOperators.Group.Finset.Basic

open scoped BigOperators

namespace Cert.LinearSpec

/-- `∑ q < 4096, g q = ∑ s < 4, ∑ j < 1024, g (1024 s + j)`, the outer sums over `Fin` and `Finset.range` as the two
    sides of the comparison meet them. -/
theorem sum_four_blocks {M : Type*} [AddCommMonoid M] (g : ℕ → M) :
    ∑ q : Fin 4096, g q.val = ∑ s ∈ Finset.range 4, ∑ j : Fin 1024, g (1024 * s + j.val) := by
  have hblk : ∀ s : ℕ, ∑ j : Fin 1024, g (1024 * s + j.val) = ∑ j ∈ Finset.range 1024, g (1024 * s + j) :=
    fun s => Fin.sum_univ_eq_sum_range (fun j => g (1024 * s + j)) 1024
  rw [Fin.sum_univ_eq_sum_range g 4096]
  simp only [hblk]
  rw [show (4096 : ℕ) = 1024 + 1024 + 1024 + 1024 from rfl, Finset.sum_range_add, Finset.sum_range_add,
    Finset.sum_range_add]
  simp only [Finset.sum_range_succ, Finset.sum_range_zero, zero_add, Nat.mul_zero, Nat.mul_one]

end Cert.LinearSpec
-- ==== Proof.Spec.lean ====
/-
  What both programs compute, as ONE function of the argument arrays over the extended reals:

      out[r, o] = (∑ q < 4096, x[r, q] · (w[o, q] · s[o])) + b[o]

  with `w` the integer weights already converted to reals, `s` the per-output-channel scale and `b` the bias.
  Arrays are read through total accessors on natural coordinates (zero outside the array), so that the part of
  the sum that one grid point contributes — the block of 1024 contraction indices number `n % 4`, for the row
  block `n / 16` and the output-channel block `n / 4 % 4` — is a function of every natural `n` and needs no
  bound. The four block terms of a run of four consecutive points, plus the bias, are the whole sum: the
  contraction axis regrouped, which uses only that addition is commutative and associative.
-/
import Idealize.ShloMosaic.PureOps.Ideal
import Idealize.ShloMosaic.Lib.ValueIdx
import proofs.«103808_j10900626997679_1_alg».proof.Proof.SumBlocks

noncomputable section

open scoped BigOperators
open Idealize.ShloMosaic Idealize.ShloMosaic.ValueIdx

namespace Cert.LinearSpec

/-- A rank-2 array of extended reals at two natural coordinates; zero outside the array. -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

/-- A rank-1 array of extended reals at a natural coordinate; zero outside the array. -/
def at1 {n : ℕ} (A : (⟨1, ![n]⟩ : Shape).Idx → EReal) (a : ℕ) : EReal :=
  if h : a < n then A (ix1 ⟨a, h⟩) else 0

/-- An entry of a rank-2 array is the accessor at the entry's coordinates. -/
theorem at2_of {n0 n1 : ℕ} (A : (⟨2, ![n0, n1]⟩ : Shape).Idx → EReal) (i : (⟨2, ![n0, n1]⟩ : Shape).Idx) (a b : ℕ)
    (h0 : (i 0).val = a) (h1 : (i 1).val = b) : A i = at2 A a b := by
  subst h0 h1
  unfold at2
  rw [dif_pos ⟨idx2_lt0 i, idx2_lt1 i⟩]
  exact congrArg A (eq_ix2 i)

/-- An entry of a rank-1 array is the accessor at the entry's coordinate. -/
theorem at1_of {n : ℕ} (A : (⟨1, ![n]⟩ : Shape).Idx → EReal) (i : (⟨1, ![n]⟩ : Shape).Idx) (a : ℕ)
    (h0 : (i 0).val = a) : A i = at1 A a := by
  subst h0
  unfold at1
  rw [dif_pos (show (i 0).val < n from (i 0).isLt)]
  exact congrArg A (eq_ix1 i)

/-- THE LINEAR LAYER: entry `(r, o)` is the sum over the 4096 input features of `x[r, q] · (w[o, q] · s[o])`, plus
    `b[o]`. -/
def linearOut (X : (⟨2, ![8192, 4096]⟩ : Shape).Idx → EReal) (Wf : (⟨2, ![4096, 4096]⟩ : Shape).Idx → EReal)
    (S B : (⟨1, ![4096]⟩ : Shape).Idx → EReal) : (⟨2, ![8192, 4096]⟩ : Shape).Idx → EReal := fun i =>
  (∑ q : Fin 4096, at2 X (i 0).val q.val * (at2 Wf (i 1).val q.val * at1 S (i 1).val)) + at1 B (i 1).val

/-- WHAT GRID POINT `n` ADDS at entry `y` of its 1024 × 1024 block: the part of the sum over contraction block
    `n % 4`, for rows `1024 (n / 16) + y₀` and output channels `1024 (n / 4 % 4) + y₁`. -/
def blockTerm (X : (⟨2, ![8192, 4096]⟩ : Shape).Idx → EReal) (Wf : (⟨2, ![4096, 4096]⟩ : Shape).Idx → EReal)
    (S : (⟨1, ![4096]⟩ : Shape).Idx → EReal) (n : ℕ) (y : (⟨2, ![1024, 1024]⟩ : Shape).Idx) : EReal :=
  ∑ j : Fin 1024, at2 X (1024 * (n / 16) + (y 0).val) (1024 * (n % 4) + j.val)
    * (at2 Wf (1024 * (n / 4 % 4) + (y 1).val) (1024 * (n % 4) + j.val) * at1 S (1024 * (n / 4 % 4) + (y 1).val))

/-- THE REGROUPING. At the last point `t` of a run of four (`t % 4 = 3`), zero plus the four points' block terms plus the
    bias of the entry's output channel is the linear layer at the entry's place in the whole array. -/
theorem run_sum_eq (X : (⟨2, ![8192, 4096]⟩ : Shape).Idx → EReal) (Wf : (⟨2, ![4096, 4096]⟩ : Shape).Idx → EReal)
    (S B : (⟨1, ![4096]⟩ : Shape).Idx → EReal) (t : ℕ) (y : (⟨2, ![1024, 1024]⟩ : Shape).Idx)
    (i : (⟨2, ![8192, 4096]⟩ : Shape).Idx)
    (h0 : (i 0).val = 1024 * (t / 16) + (y 0).val) (h1 : (i 1).val = 1024 * (t / 4 % 4) + (y 1).val) :
    ((0 : EReal) + ∑ s ∈ Finset.range 4, blockTerm X Wf S (4 * (t / 4) + s) y) + at1 B (1024 * (t / 4 % 4) + (y 1).val)
      = linearOut X Wf S B i := by
  unfold linearOut
  rw [h0, h1, zero_add,
    sum_four_blocks (fun q => at2 X (1024 * (t / 16) + (y 0).val) q
      * (at2 Wf (1024 * (t / 4 % 4) + (y 1).val) q * at1 S (1024 * (t / 4 % 4) + (y 1).val)))]
  refine congrArg (· + at1 B (1024 * (t / 4 % 4) + (y 1).val)) (Finset.sum_congr rfl fun s hs => ?_)
  have hs4 : s < 4 := Finset.mem_range.mp hs
  have e1 : (4 * (t / 4) + s) / 16 = t / 16 := by omega
  have e2 : (4 * (t / 4) + s) / 4 % 4 = t / 4 % 4 := by omega
  have e3 : (4 * (t / 4) + s) % 4 = s := by omega
  unfold blockTerm
  rw [e1, e2, e3]

end Cert.LinearSpec

end
-- ==== Proof.Payload.lean ====
/-
  The kernel body's three stored values, read at one entry of the 1024 × 1024 block, over the extended reals.
  The reset stores zero. The accumulation stores, at entry `(p, q)`, what the accumulator held there plus
  `∑ j < 1024, x[p, j] · (w[q, j] · s[q])`: the product of the activation block with the transposed dequantized
  weight block contracts the last axis of both, the integer weight is converted to a real and scaled by its row's
  scale (a column vector broadcast along the row), and the two narrowings to bf16 are the identity on extended
  reals. The epilogue stores the accumulator plus the bias of column `q` (a row vector broadcast down the rows).
-/
import proofs.«103808_j10900626997679_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The block product's operand indices: rows of the left operand, rows of the right, one shared column -/

theorem lhs_axis0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem rhs_axis0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The block product into a zero accumulator at entry `(p, q)`: row `p` of the left operand against row `q` of the
    right one. -/
theorem blockProduct_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ j : Fin 1024, l (ix2 p j) * r (ix2 q j) := by
  show FloatOps.matmul dot_S1024x1024_S1024x1024_S1024x1024_1_1_0_0_n_n none l r (constant (F := Ideal) S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The two broadcasts -/

/-- A column vector broadcast along the rows: entry `(q, j)` is the column's entry `q`. -/
theorem columnBroadcast_apply {α : Type} (x : S1024x1.Idx → α) (q j : Fin 1024) :
    broadcastTo S1024x1024 x broadcasts_S1024x1_S1024x1024 (ix2 q j) = x (ix2 q (0 : Fin 1)) :=
  broadcastTo_apply x broadcasts_S1024x1_S1024x1024 (ix2 q j) (ix2 q (0 : Fin 1)) (fun a => match a with
    | ⟨0, _⟩ => by show q.val = if (1024 : Nat) = 1 then 0 else q.val; rw [if_neg (by decide)]
    | ⟨1, _⟩ => by show 0 = if (1 : Nat) = 1 then 0 else j.val; rw [if_pos rfl])

/-- A row vector broadcast down the rows: entry `(p, q)` is the row's entry `q`. -/
theorem rowBroadcast_apply {α : Type} (x : S1x1024.Idx → α) (p q : Fin 1024) :
    broadcastTo S1024x1024 x broadcasts_S1x1024_S1024x1024 (ix2 p q) = x (ix2 (0 : Fin 1) q) :=
  broadcastTo_apply x broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The three stored values -/

/-- The reset stores zero everywhere. -/
theorem reset_apply (y : S1024x1024.Idx) : k0_pay1 (F := Ideal) y = 0 := by
  unfold k0_pay1
  refine (congrFun (shapeCast_self _ _) y).trans ?_
  show Ideal.ofBits .f32 0x00000000#32 = 0
  exact Ideal.ofBits_zero_f32

/-- The accumulation at entry `(p, q)`: the accumulator there plus row `p` of the activations against row `q` of the
    scaled weights. -/
theorem accumulate_apply (x0 : Vec Ideal S1024x1024 .f32) (x1 : Vec Ideal S1024x1024 .i32) (x2 : Vec Ideal S1024x1 .f32)
    (acc : Vec Ideal S1024x1024 .f32) (p q : Fin 1024) :
    k0_pay2 (F := Ideal) x0 x1 x2 acc (ix2 p q)
      = acc (ix2 p q) + ∑ j : Fin 1024, x0 (ix2 p j) * (FloatOps.sitofp (F := Ideal) .f32 (x1 (ix2 q j)) * x2 (ix2 q (0 : Fin 1))) := by
  unfold k0_pay2
  refine (congrFun (shapeCast_self _ _) (ix2 p q)).trans ?_
  refine congrArg (acc (ix2 p q) + ·) ((blockProduct_apply _ _ p q).trans (Finset.sum_congr rfl fun j _ => ?_))
  refine congrArg (x0 (ix2 p j) * ·) (congrArg (FloatOps.sitofp (F := Ideal) .f32 (x1 (ix2 q j)) * ·) ?_)
  exact (columnBroadcast_apply _ q j).trans (congrFun (shapeCast_self x2 _) _)

/-- The epilogue at entry `(p, q)`: the accumulator there plus the bias of column `q`. -/
theorem epilogue_apply (acc : Vec Ideal S1024x1024 .f32) (x3 : Vec Ideal S1x1024 .f32) (p q : Fin 1024) :
    k0_pay3 (F := Ideal) acc x3 (ix2 p q) = acc (ix2 p q) + x3 (ix2 (0 : Fin 1) q) := by
  unfold k0_pay3
  refine congrArg (acc (ix2 p q) + ·) ?_
  exact (rowBroadcast_apply _ p q).trans (congrFun (shapeCast_self x3 _) _)

end Cert.KernelIdeal.Payload

end
-- ==== Proof.Pieces.lean ====
/-
  What one run of the kernel body leaves behind, as a value of what it was given — for any float instance.
  At the first point of a run of four the accumulator is stored twice, zero and then zero plus the point's
  product, and only the second store is read afterwards; at the later points it is stored once, what the point
  before left plus the point's product; at the last point the output block is stored once, the accumulator just
  updated plus the bias row. Each store covers its whole buffer, so the buffer's contents are the last store's
  value, and a load between two stores reads the earlier store's value.
-/
import proofs.«103808_j10900626997679_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic

variable {F : FTy → Type} [FloatOps F]

/-- Every store and load of the body starts at the origin of its buffer. -/
theorem origin : (![0, 0] : Fin 2 → Nat) = fun _ => 0 := funext fun a => by fin_cases a <;> rfl

/-- First point of a run: the accumulator ends at zero plus this point's product. -/
theorem scratch_first (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .i32) (x2 : Vec F S1024x1 .f32) (x3 : Vec F S1x1024 .f32) :
    sout0_A_0 (F := F) c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, harg5.read_unread,
    View.ld_unit_zero (S := S1024x1024) origin, View.ld_unit_zero (S := S1024x1) origin]

/-- A middle point of a run: the accumulator ends at what the point before left plus this point's product. -/
theorem scratch_middle (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .i32) (x2 : Vec F S1024x1 .f32) (x3 : Vec F S1x1024 .f32) (xs0 : Vec F S1024x1024 .f32) :
    sout0_B_0 (F := F) c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x1024) origin]
  simp only [View.readAt_eq_ld, harg3.read_unread, harg4.read_unread, harg5.read_unread, harg8.read_unread,
    View.ld_unit_zero (S := S1024x1024) origin, View.ld_unit_zero (S := S1024x1) origin]

/-- Last point of a run: the accumulator ends at what the point before left plus this point's product. -/
theorem scratch_last (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .i32) (x2 : Vec F S1024x1 .f32) (x3 : Vec F S1x1024 .f32) (xs0 : Vec F S1024x1024 .f32) :
    sout0_C_0 (F := F) c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) origin]
  simp only [View.readAt_eq_ld, harg3.read_unread, harg4.read_unread, harg5.read_unread, harg8.read_unread,
    View.ld_unit_zero (S := S1024x1024) origin, View.ld_unit_zero (S := S1024x1) origin]

/-- Last point of a run: the output block ends at the accumulator just updated plus the bias row. -/
theorem output_last (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .i32) (x2 : Vec F S1024x1 .f32) (x3 : Vec F S1x1024 .f32) (xs0 : Vec F S1024x1024 .f32) :
    out0_C_4 (F := F) c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) origin]
  simp only [View.readAt_eq_ld, harg3.read_unread, harg4.read_unread, harg5.read_unread, harg6.read_unread, harg8.read_unread,
    View.readCov_unit_zero (S := S1024x1024) _ origin,
    View.ld_unit_zero (S := S1024x1024) origin, View.ld_unit_zero (S := S1024x1) origin, View.ld_unit_zero (S := S1x1024) origin]

end Cert.KernelIdeal.Pieces

end
-- ==== Proof.Blocks.lean ====
/-
  The blocks the kernel body is handed at grid point `t` of the 8 × 4 × 4 grid (`t = 16 i + 4 j + k`), as entries
  of the argument arrays: the activation block is rows `1024 i …` and columns `1024 k …` of `x`; the weight block is
  rows `1024 j …` and columns `1024 k …` of the integer weights (here already converted to reals); the scale block
  is entries `1024 j …` of the scales, which the program first reshapes to a column; the bias block is entries
  `1024 j …` of the bias, first reshaped to a row. A block's entry sits in its array at block index times block
  size plus the coordinate inside the block, and the block indices are decided over the 128 points.
-/
import proofs.«103808_j10900626997679_1_alg».proof.Proof.Gen.KernelIdeal.Frame
import proofs.«103808_j10900626997679_1_alg».proof.Proof.Spec
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.LinearSpec

variable (m : (ℓ : Loc nD τ sig) → Buf (Elt Ideal) ℓ)

/-! ## The argument arrays, as arrays of extended reals -/

/-- The activations. -/
abbrev xArr (c : Dev nD) : S8192x4096.Idx → EReal := m ((c : Thread nD τ).loc main_arg0)
/-- The integer weights, converted to reals. -/
abbrev wArr (c : Dev nD) : S4096x4096.Idx → EReal := sitofp (F := Ideal) .f32 (m ((c : Thread nD τ).loc main_arg1))
/-- The per-output-channel scales. -/
abbrev sArr (c : Dev nD) : S4096.Idx → EReal := m ((c : Thread nD τ).loc main_arg2)
/-- The bias. -/
abbrev bArr (c : Dev nD) : S4096.Idx → EReal := m ((c : Thread nD τ).loc main_arg3)

/-! ## The input blocks at a point, at their literal types -/

abbrev xBlk (c : Dev nD) (t : Fin cfg0.N) : Vec Ideal S1024x1024 .f32 := iblk m c 0 t
abbrev wBlk (c : Dev nD) (t : Fin cfg0.N) : Vec Ideal S1024x1024 .i32 := iblk m c 1 t
abbrev sBlk (c : Dev nD) (t : Fin cfg0.N) : Vec Ideal S1024x1 .f32 := iblk m c 2 t
abbrev bBlk (c : Dev nD) (t : Fin cfg0.N) : Vec Ideal S1x1024 .f32 := iblk m c 3 t

/-! ## The block indices, decided over the grid -/

theorem index_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem index_w : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem index_s : ∀ t : Fin cfg0.N, win0_2.index t (0 : Fin 2) = t.val / 4 % 4 ∧ win0_2.index t (1 : Fin 2) = 0 :=
  (by decide +kernel : ∀ t : Fin grid0.N, win0_2.index t (0 : Fin 2) = t.val / 4 % 4 ∧ win0_2.index t (1 : Fin 2) = 0)
theorem index_b : ∀ t : Fin cfg0.N, win0_3.index t (0 : Fin 2) = 0 ∧ win0_3.index t (1 : Fin 2) = t.val / 4 % 4 :=
  (by decide +kernel : ∀ t : Fin grid0.N, win0_3.index t (0 : Fin 2) = 0 ∧ win0_3.index t (1 : Fin 2) = t.val / 4 % 4)
theorem index_o : ∀ t : Fin cfg0.N, win0_4.index t (0 : Fin 2) = t.val / 16 ∧ win0_4.index t (1 : Fin 2) = t.val / 4 % 4 :=
  (by decide +kernel : ∀ t : Fin grid0.N, win0_4.index t (0 : Fin 2) = t.val / 16 ∧ win0_4.index t (1 : Fin 2) = t.val / 4 % 4)

/-! ## The two arrays a reshape writes before the region -/

/-- The scales as a column. -/
theorem scale_column (c : Dev nD) :
    (V m c main_v0 : S4096x1.Idx → EReal) = shapeCast S4096x1 (sArr m c) shapeCasts_S4096_S4096x1 := by
  dsimp only [Gen.V, Gen.hostOps0]; after_results; rfl

/-- The bias as a row. -/
theorem bias_row (c : Dev nD) :
    (V m c main_v1 : S1x4096.Idx → EReal) = shapeCast S1x4096 (bArr m c) shapeCasts_S4096_S1x4096 := by
  dsimp only [Gen.V, Gen.hostOps0]; after_results; rfl

/-! ## The blocks' entries -/

/-- Entry `(p, j)` of the activation block. -/
theorem x_block (c : Dev nD) (t : Fin cfg0.N) (p j : Fin 1024) :
    xBlk m c t (ix2 p j) = at2 (xArr m c) (1024 * (t.val / 16) + p.val) (1024 * (t.val % 4) + j.val) := by
  unfold xBlk iblk
  rw [View.read_apply]
  show V m c main_arg0 _ = _
  rw [V_main_arg0]
  refine at2_of (xArr m c) _ _ _ ?_ ?_
  · show win0_0.index t (0 : Fin 2) * 1024 + 1 * p.val = _
    rw [(index_x t).1]; omega
  · show win0_0.index t (1 : Fin 2) * 1024 + 1 * j.val = _
    rw [(index_x t).2]; omega

/-- Entry `(q, j)` of the weight block, converted to a real. -/
theorem w_block (c : Dev nD) (t : Fin cfg0.N) (q j : Fin 1024) :
    FloatOps.sitofp (F := Ideal) .f32 (wBlk m c t (ix2 q j))
      = at2 (wArr m c) (1024 * (t.val / 4 % 4) + q.val) (1024 * (t.val % 4) + j.val) := by
  unfold wBlk iblk
  rw [View.read_apply]
  show FloatOps.sitofp (F := Ideal) .f32 (V m c main_arg1 _) = _
  rw [V_main_arg1]
  show wArr m c _ = _
  refine at2_of (wArr m c) _ _ _ ?_ ?_
  · show win0_1.index t (0 : Fin 2) * 1024 + 1 * q.val = _
    rw [(index_w t).1]; omega
  · show win0_1.index t (1 : Fin 2) * 1024 + 1 * j.val = _
    rw [(index_w t).2]; omega

/-- Entry `q` of the scale block (a column). -/
theorem s_block (c : Dev nD) (t : Fin cfg0.N) (q : Fin 1024) :
    sBlk m c t (ix2 q (0 : Fin 1)) = at1 (sArr m c) (1024 * (t.val / 4 % 4) + q.val) := by
  have hq := q.isLt
  unfold sBlk iblk
  rw [View.read_apply]
  show (V m c main_v0 : S4096x1.Idx → EReal) _ = _
  rw [scale_column]
  refine (shapeCast_apply (sArr m c) shapeCasts_S4096_S4096x1 _
    (ix1 (⟨1024 * (t.val / 4 % 4) + q.val, by omega⟩ : Fin 4096)) ?_).trans (at1_of (sArr m c) _ _ rfl)
  rw [Shape.rowMajor_val_one, Shape.rowMajor_val_two]
  show 1024 * (t.val / 4 % 4) + q.val = (win0_2.index t (0 : Fin 2) * 1024 + 1 * q.val) * 1 + (win0_2.index t (1 : Fin 2) * 1 + 1 * 0)
  rw [(index_s t).1, (index_s t).2]; omega

/-- Entry `q` of the bias block (a row). -/
theorem b_block (c : Dev nD) (t : Fin cfg0.N) (q : Fin 1024) :
    bBlk m c t (ix2 (0 : Fin 1) q) = at1 (bArr m c) (1024 * (t.val / 4 % 4) + q.val) := by
  have hq := q.isLt
  unfold bBlk iblk
  rw [View.read_apply]
  show (V m c main_v1 : S1x4096.Idx → EReal) _ = _
  rw [bias_row]
  refine (shapeCast_apply (bArr m c) shapeCasts_S4096_S1x4096 _
    (ix1 (⟨1024 * (t.val / 4 % 4) + q.val, by omega⟩ : Fin 4096)) ?_).trans (at1_of (bArr m c) _ _ rfl)
  rw [Shape.rowMajor_val_one, Shape.rowMajor_val_two]
  show 1024 * (t.val / 4 % 4) + q.val = (win0_3.index t (0 : Fin 2) * 1 + 1 * 0) * 4096 + (win0_3.index t (1 : Fin 2) * 1024 + 1 * q.val)
  rw [(index_b t).1, (index_b t).2]; omega

end Cert.KernelIdeal.Blocks

end
-- ==== Proof.KernelValue.lean ====
/-
  What the kernel leaves in its result array: the linear layer of its arguments.

  The grid's 128 points fall into 32 runs of four consecutive points, one run per 1024 × 1024 block of the result;
  within a run the row block and the output-channel block are fixed and the contraction block goes 0, 1, 2, 3.
  The accumulator after the first point of a run is zero plus that point's block term, and every later point adds
  its own block term to what the point before left; so after the last point it is zero plus the four block terms.
  That last point stores the accumulator plus the bias row into the output block, which is the only time the
  block is written back. The four block terms are the whole contraction, regrouped; so the block written back is
  the linear layer read through the block, the 32 blocks cover the result array, and the array ends holding the
  linear layer.
-/
import proofs.«103808_j10900626997679_1_alg».proof.Proof.Gen.KernelIdeal.Value
import proofs.«103808_j10900626997679_1_alg».proof.Proof.Spec
import proofs.«103808_j10900626997679_1_alg».proof.Proof.Payload
import proofs.«103808_j10900626997679_1_alg».proof.Proof.Pieces
import proofs.«103808_j10900626997679_1_alg».proof.Proof.Blocks
import Idealize.ShloMosaic.Lib.Pipeline.Value

noncomputable section

open scoped BigOperators

namespace Cert.KernelIdeal.KernelValue

open Cert.KernelIdeal Cert.KernelIdeal.Gen Cert.KernelIdeal.Value Cert.KernelIdeal.Blocks Cert.KernelIdeal.Payload
open Cert.KernelIdeal.Pieces
open Idealize.ShloMosaic Idealize.ShloMosaic.TcCoe Idealize.SL.Sem Idealize.ShloMosaic.ValueIdx Cert.LinearSpec
open Idealize.ShloMosaic.Pipeline (Dat)

variable (m : (ℓ : Loc nD τ sig) → Buf (Elt Ideal) ℓ) (ρ : Dev nD → PrngReg)

/-- The linear layer of the four argument arrays as launched. -/
abbrev result (c : Dev nD) : S8192x4096.Idx → EReal := linearOut (xArr m c) (wArr m c) (sArr m c) (bArr m c)

/-- Point `n`'s block term at an entry of its block. -/
abbrev term (c : Dev nD) (n : ℕ) (y : S1024x1024.Idx) : EReal := blockTerm (xArr m c) (wArr m c) (sArr m c) n y

/-! ## One point -/

/-- The product of a point's activation block with its scaled weight block, at an entry, is the point's block term. -/
theorem product_eq (c : Dev nD) (t : Fin cfg0.N) (p q : Fin 1024) :
    (∑ j : Fin 1024, xBlk m c t (ix2 p j)
        * (FloatOps.sitofp (F := Ideal) .f32 (wBlk m c t (ix2 q j)) * sBlk m c t (ix2 q (0 : Fin 1))))
      = term m c t.val (ix2 p q) := by
  show _ = blockTerm (xArr m c) (wArr m c) (sArr m c) t.val (ix2 p q)
  unfold blockTerm
  refine Finset.sum_congr rfl fun j _ => ?_
  rw [x_block, w_block, s_block]

/-- At the first point of a run the accumulator is left at zero plus the point's block term, whatever it held. -/
theorem step_first (c : Dev nD) (n : ℕ) (h : n < cfg0.N) (h0 : n % 4 = 0) (acc : Vec Ideal S1024x1024 .f32)
    (y : S1024x1024.Idx) : scAt0_0 m c n h acc y = 0 + term m c n y := by
  have h1 : ¬ n % 4 = 3 := by omega
  obtain ⟨p, q, rfl⟩ : ∃ (p q : Fin 1024), y = ix2 p q := ⟨y 0, y 1, eq_ix2 y⟩
  unfold scAt0_0
  rw [dif_pos h0, dif_neg h1]
  refine (congrFun (scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _)
    ((hcond0_0 (⟨n, h⟩ : Fin cfg0.N)).mpr h0) (fun hh => h1 ((hcond0_1 (⟨n, h⟩ : Fin cfg0.N)).mp hh)) (xBlk m c (⟨n, h⟩ : Fin cfg0.N)) (wBlk m c (⟨n, h⟩ : Fin cfg0.N)) (sBlk m c (⟨n, h⟩ : Fin cfg0.N)) (bBlk m c (⟨n, h⟩ : Fin cfg0.N))) (ix2 p q)).trans ?_
  rw [accumulate_apply, reset_apply, product_eq m c (⟨n, h⟩ : Fin cfg0.N) p q]

/-- At every later point of a run the accumulator is left at what it held plus the point's block term. -/
theorem step_later (c : Dev nD) (n : ℕ) (h : n < cfg0.N) (h0 : ¬ n % 4 = 0) (acc : Vec Ideal S1024x1024 .f32)
    (y : S1024x1024.Idx) : scAt0_0 m c n h acc y = acc y + term m c n y := by
  obtain ⟨p, q, rfl⟩ : ∃ (p q : Fin 1024), y = ix2 p q := ⟨y 0, y 1, eq_ix2 y⟩
  unfold scAt0_0
  by_cases h1 : n % 4 = 3
  · rw [dif_neg h0, dif_pos h1]
    refine (congrFun (scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _)
      (fun hh => h0 ((hcond0_0 (⟨n, h⟩ : Fin cfg0.N)).mp hh)) ((hcond0_1 (⟨n, h⟩ : Fin cfg0.N)).mpr h1) (xBlk m c (⟨n, h⟩ : Fin cfg0.N)) (wBlk m c (⟨n, h⟩ : Fin cfg0.N)) (sBlk m c (⟨n, h⟩ : Fin cfg0.N)) (bBlk m c (⟨n, h⟩ : Fin cfg0.N)) acc) (ix2 p q)).trans ?_
    rw [accumulate_apply, product_eq m c (⟨n, h⟩ : Fin cfg0.N) p q]
  · rw [dif_neg h0, dif_neg h1]
    refine (congrFun (scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _)
      (fun hh => h0 ((hcond0_0 (⟨n, h⟩ : Fin cfg0.N)).mp hh)) (fun hh => h1 ((hcond0_1 (⟨n, h⟩ : Fin cfg0.N)).mp hh)) (xBlk m c (⟨n, h⟩ : Fin cfg0.N)) (wBlk m c (⟨n, h⟩ : Fin cfg0.N)) (sBlk m c (⟨n, h⟩ : Fin cfg0.N)) (bBlk m c (⟨n, h⟩ : Fin cfg0.N)) acc) (ix2 p q)).trans ?_
    rw [accumulate_apply, product_eq m c (⟨n, h⟩ : Fin cfg0.N) p q]

/-! ## A run of four points -/

/-- THE ACCUMULATOR after point `t`: zero plus the block terms of the points of `t`'s run up to `t`. -/
theorem scratch_after (c : Dev nD) (t : Fin cfg0.N) (y : S1024x1024.Idx) :
    (outsAt0 m c t.val t.isLt).2 y = 0 + ∑ s ∈ Finset.range (t.val % 4 + 1), term m c (4 * (t.val / 4) + s) y := by
  rw [soutsAt0_0_eq m c t]
  exact Pipeline.accAt_add_apply (ι := S1024x1024.Idx) (β := EReal)
    (fun n h => scAt0_0 m c n h (VS0_0.read (Elt Ideal) VS0_0.junk)) (scAt0_0 m c) (fun _ => 0) (fun n y => term m c n y)
    (4 * (t.val / 4)) 3
    (fun h i => step_first m c _ h (by omega) _ i)
    (fun n h acc i hlt hle => step_later m c n h (by omega) acc i)
    (t.val % 4) (by omega) _ y

/-- THE OUTPUT BLOCK after the last point `t` of a run: zero plus the run's four block terms, plus the bias. -/
theorem output_at (c : Dev nD) (t : Fin cfg0.N) (h1 : t.val % 4 = 3) (p q : Fin 1024) :
    (outsAt0 m c t.val t.isLt).1 (ix2 p q)
      = (0 + ∑ s ∈ Finset.range 4, term m c (4 * (t.val / 4) + s) (ix2 p q))
        + at1 (bArr m c) (1024 * (t.val / 4 % 4) + q.val) := by
  have h0 : ¬ t.val % 4 = 0 := by omega
  have hs : (outsAt0 m c t.val t.isLt).2
      = k0_pay2 (F := Ideal) (xBlk m c t) (wBlk m c t) (sBlk m c t)
          ((outsAt0 m c (t.val - 1) (Nat.lt_of_le_of_lt (Nat.sub_le _ _) t.isLt)).2) := by
    rw [outsAt0_C m c t h0 h1]; dsimp only
    exact scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => h0 ((hcond0_0 t).mp hh)) ((hcond0_1 t).mpr h1) (xBlk m c t) (wBlk m c t) (sBlk m c t) (bBlk m c t)
      ((outsAt0 m c (t.val - 1) (Nat.lt_of_le_of_lt (Nat.sub_le _ _) t.isLt)).2)
  have ho : (outsAt0 m c t.val t.isLt).1
      = k0_pay3 (F := Ideal) (k0_pay2 (F := Ideal) (xBlk m c t) (wBlk m c t) (sBlk m c t)
          ((outsAt0 m c (t.val - 1) (Nat.lt_of_le_of_lt (Nat.sub_le _ _) t.isLt)).2)) (bBlk m c t) := by
    rw [outsAt0_C m c t h0 h1]; dsimp only
    exact output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => h0 ((hcond0_0 t).mp hh)) ((hcond0_1 t).mpr h1) (xBlk m c t) (wBlk m c t) (sBlk m c t) (bBlk m c t)
      ((outsAt0 m c (t.val - 1) (Nat.lt_of_le_of_lt (Nat.sub_le _ _) t.isLt)).2)
  have hsum : (outsAt0 m c t.val t.isLt).2 (ix2 p q)
      = 0 + ∑ s ∈ Finset.range 4, term m c (4 * (t.val / 4) + s) (ix2 p q) := by
    have e := scratch_after m c t (ix2 p q)
    rw [h1] at e
    exact e
  rw [ho, epilogue_apply, ← hs, hsum, b_block]

/-! ## From the blocks to the array -/

/-- WHAT A FLUSHING POINT WRITES BACK is its block of the linear layer. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  rw [flushed4]
  funext y
  obtain ⟨p, q, rfl⟩ : ∃ (p q : Fin 1024), y = ix2 p q := ⟨y 0, y 1, eq_ix2 y⟩
  show (outsAt0 m c t.val t.isLt).1 (ix2 p q) = result m c (((cfg0.win 4).blk t).view.emb (ix2 p q))
  rw [output_at m c t h1 p q]
  refine run_sum_eq (xArr m c) (wArr m c) (sArr m c) (bArr m c) t.val (ix2 p q) _ ?_ ?_
  · show win0_4.index t (0 : Fin 2) * 1024 + 1 * p.val = 1024 * (t.val / 16) + p.val
    rw [(index_o t).1]; omega
  · show win0_4.index t (1 : Fin 2) * 1024 + 1 * q.val = 1024 * (t.val / 4 % 4) + q.val
    rw [(index_o t).2]; omega

/-- An entry of the result array is in point `t`'s block iff each coordinate is in the block's range on its axis. -/
theorem mem_block (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2).slice (win0_4.rect t)).set ↔ _
  rw [View.set_slice_whole, Rect.mem_set_unit]
  exact Iff.rfl

/-- Every entry of the result array is in the block of the last point of some run. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [show cfg0.N = 128 from N_0]; omega⟩, rfl⟩
  refine ⟨t, (flush0_4 t).mpr (by omega), ?_⟩
  rw [mem_block]
  intro a
  match a with
  | ⟨0, _⟩ =>
    show win0_4.index t (0 : Fin 2) * 1024 ≤ (i 0).val ∧ (i 0).val < win0_4.index t (0 : Fin 2) * 1024 + 1024
    rw [(index_o t).1]; omega
  | ⟨1, _⟩ =>
    show win0_4.index t (1 : Fin 2) * 1024 ≤ (i 1).val ∧ (i 1).val < win0_4.index t (1 : Fin 2) * 1024 + 1024
    rw [(index_o t).2]; omega

/-- THE RESULT ARRAY after the run is the linear layer. -/
theorem final (c : Dev nD) : (dats m 0 c).arrAt 4 cfg0.N = result m c :=
  (dats m 0 c).arrAt_eq_of_cover 4 (result m c) (fun t hf => flushed_eq m c t hf) covered

/-- THE RUN: every weakly fair execution terminates with the result array at the linear layer of the arguments
    and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KernelValue

end
-- ==== Proof.RefValue.lean ====
/-
  The reference's result is the linear layer. Read one operation at a time: the final add is the contraction's
  entry plus the bias broadcast down the rows; the contraction's entry `(r, o)` is the sum over `q` of `x[r, q]`
  times entry `(o, q)` of the dequantized weights; that entry is the converted integer weight times the scale of
  row `o`, the scales having been broadcast to a column and then along the rows.
-/
import proofs.«103808_j10900626997679_1_alg».proof.Proof.Gen.ReferenceIdeal.Read
import proofs.«103808_j10900626997679_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.LinearSpec

/-- Entry `(o, q)` of the dequantized weights: the converted weight times the scale of its row. -/
theorem dequant_apply (x1 : (⟨S4096x4096, .i32⟩ : BufTy).Contents (Elt Ideal)) (x2 : (⟨S4096, .f32⟩ : BufTy).Contents (Elt Ideal))
    (j : S4096x4096.Idx) :
    val_main_v3 (F := Ideal) x1 x2 j
      = at2 (sitofp (F := Ideal) .f32 x1) (j 0).val (j 1).val * at1 x2 (j 0).val := by
  rw [val_main_v3_apply, val_main_v0_apply, val_main_v2_apply, val_main_v1_apply]
  show FloatOps.sitofp (F := Ideal) .f32 (x1 j) * x2 (idx_main_v1 (idx_main_v2 j)) = _
  refine congrArg₂ (· * ·) ?_ ?_
  · exact at2_of (sitofp (F := Ideal) .f32 x1) j _ _ rfl rfl
  · exact at1_of x2 _ _ rfl

/-- THE REFERENCE IS THE LINEAR LAYER of its four arguments. -/
theorem reference_eq (x0 : (⟨S8192x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = linearOut x0 (sitofp (F := Ideal) .f32 x1) x2 x3 := by
  funext i
  rw [val_main_v7_apply, val_main_v4_apply, val_main_v6_apply, val_main_v5_apply]
  show (∑ k : Fin 4096, x0 (lidx_main_v4 i k) * val_main_v3 (F := Ideal) x1 x2 (ridx_main_v4 i k))
      + x3 (idx_main_v5 (idx_main_v6 i)) = _
  unfold linearOut
  refine congrArg₂ (· + ·) (Finset.sum_congr rfl fun k _ => ?_) ?_
  · refine congrArg₂ (· * ·) (at2_of x0 _ _ _ rfl rfl) ?_
    exact dequant_apply x1 x2 (ridx_main_v4 i k)
  · exact at1_of x3 _ _ rfl

end Cert.ReferenceIdeal.RefValue

end
-- ==== Proof.lean ====
/-
  A per-output-channel dequantized linear layer, `out = x · (w ⊙ s)ᵀ + b`, computed by a tiled kernel against a plain
  reference; over the extended reals both are

      out[r, o] = (∑ q < 4096, x[r, q] · (w[o, q] · s[o])) + b[o].

  The kernel walks an 8 × 4 × 4 grid of 1024-blocks (rows, output channels, contraction). For each of the 32 result
  blocks it zeroes an accumulator at the first contraction block, adds the product of the activation block with
  the scaled weight block at each of the four, and at the last writes the accumulator plus the bias row to the
  result. Its narrowings of both operands to bf16 are the identity on extended reals, so each product is an exact
  sum of 1024 terms, and the four of them are the reference's sum of 4096 terms regrouped: addition on the extended
  reals is commutative and associative, which is all the regrouping needs, so the inputs' finiteness is not used.
  The reference converts the weights, multiplies them by the scales broadcast along the rows, contracts against the
  activations and adds the bias broadcast down the rows.

  The kernel's and its idealization's frames are the generated ones; the reference's frame is its generated run
  with the result dropped; the idealization changed no operation, so there is nothing to preserve.
-/
import proofs.«103808_j10900626997679_1_alg».proof.Defs
import proofs.«103808_j10900626997679_1_alg».proof.Proof.Gen.Kernel
import proofs.«103808_j10900626997679_1_alg».proof.Proof.Gen.Kernel.Skeleton
import proofs.«103808_j10900626997679_1_alg».proof.Proof.Gen.Kernel.Launch
import proofs.«103808_j10900626997679_1_alg».proof.Proof.Gen.Kernel.Points
import proofs.«103808_j10900626997679_1_alg».proof.Proof.Gen.Kernel.Frame
import proofs.«103808_j10900626997679_1_alg».proof.Proof.Gen.KernelIdeal
import proofs.«103808_j10900626997679_1_alg».proof.Proof.Gen.KernelIdeal.Skeleton
import proofs.«103808_j10900626997679_1_alg».proof.Proof.Gen.KernelIdeal.Launch
import proofs.«103808_j10900626997679_1_alg».proof.Proof.Gen.KernelIdeal.Points
import proofs.«103808_j10900626997679_1_alg».proof.Proof.Gen.KernelIdeal.Frame
import proofs.«103808_j10900626997679_1_alg».proof.Proof.Gen.ReferenceIdeal
import proofs.«103808_j10900626997679_1_alg».proof.Proof.Gen.Pre_finite_inputs
import proofs.«103808_j10900626997679_1_alg».proof.Proof.Gen.KernelIdeal.Value
import proofs.«103808_j10900626997679_1_alg».proof.Proof.Gen.ReferenceIdeal.Run
import proofs.«103808_j10900626997679_1_alg».proof.Proof.Gen.ReferenceIdeal.Read
import proofs.«103808_j10900626997679_1_alg».proof.Proof.KernelValue
import proofs.«103808_j10900626997679_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the result at the linear layer of the
    kernel's arguments: the kernel by its run of 32 accumulated blocks, the reference by reading its operations one
    at a time and then exchanging its arguments for the kernel's. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
